-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x2048 .f32) (main_arg1 : FVec F S2048x2048 .f32) (main_arg2 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S512x2048 : Shape := ⟨2, ![512, 2048]⟩

abbrev nBuf : Space → Nat
  | .hbm => 22
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x2048, .i1⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | .hbm, ⟨20, _⟩ => ⟨S1x2048, .f32⟩
  | .hbm, ⟨21, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S2048x2048_S_d0_1 : S2048x2048.ReducesTo [0, 1] S_
  h_S_ : 0 < S_.numel
  bcast_S_S2048x2048 : S_.BroadcastsInDim S2048x2048 (![] : Fin 0 → Fin S2048x2048.rank)
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x2048.size a
  hwx0_3 : ∀ i : grid0.Coords, EltTy.bits .f32 = 32 ∨ (Rect.block (s := S8192x2048) S512x2048.size (cc0_transform_3 i) (hinb0_3 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x2048, .i1⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  reducesTo_S2048x2048_S_d0_1 : S2048x2048.ReducesTo [0, 1] S_
  h_S_ : 0 < S_.numel
  bcast_S_S2048x2048 : S_.BroadcastsInDim S2048x2048 (![] : Fin 0 → Fin S2048x2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.BlockDense.lean ====
/-
  What the kernel body stores at one grid point, read at an index of its 512 × 2048 output block: the
  matrix product of the activation block with the whole (quantized) weight matrix, accumulated from zero,
  is the sum over the contraction position k of x[p, k] · q[k, c]; the bias row, broadcast down the 512
  rows, reads b[0, c]. The narrowing of the activations before the product changes nothing at the
  extended reals.
-/
import proofs.«416222_j17892833755667_3_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-- The product's left operand at output (p, c): its row coordinate is p … -/
theorem lhs_row (i : S512x2048.Idx) (q : dot_S512x2048_S2048x2048_S512x2048_1_0_0_1_n_n.contr.Idx) :
    (dot_S512x2048_S2048x2048_S512x2048_1_0_0_1_n_n.lhsIdx i q 0).val = (i 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl
/-- … and its column coordinate the contraction position. -/
theorem lhs_contr (i : S512x2048.Idx) (q : dot_S512x2048_S2048x2048_S512x2048_1_0_0_1_n_n.contr.Idx) :
    (dot_S512x2048_S2048x2048_S512x2048_1_0_0_1_n_n.lhsIdx i q 1).val = (q ⟨0, by decide⟩).val :=
  dot_S512x2048_S2048x2048_S512x2048_1_0_0_1_n_n.lhsIdx_val_of_single rfl i q
/-- The right operand's row coordinate is the contraction position … -/
theorem rhs_contr (i : S512x2048.Idx) (q : dot_S512x2048_S2048x2048_S512x2048_1_0_0_1_n_n.contr.Idx) :
    (dot_S512x2048_S2048x2048_S512x2048_1_0_0_1_n_n.rhsIdx i q 0).val = (q ⟨0, by decide⟩).val :=
  dot_S512x2048_S2048x2048_S512x2048_1_0_0_1_n_n.rhsIdx_val_of_single rfl i q
/-- … and its column coordinate is c. -/
theorem rhs_col (i : S512x2048.Idx) (q : dot_S512x2048_S2048x2048_S512x2048_1_0_0_1_n_n.contr.Idx) :
    (dot_S512x2048_S2048x2048_S512x2048_1_0_0_1_n_n.rhsIdx i q 1).val = (i 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

/-- The block product from a zero accumulator, at (p, c): ∑ₖ x[p, k] · q[k, c]. -/
theorem product_apply (x0 : FVec Ideal S512x2048 .bf16) (x1 : FVec Ideal S2048x2048 .bf16) (p : Fin 512) (c : Fin 2048) :
    (matmul dot_S512x2048_S2048x2048_S512x2048_1_0_0_1_n_n none x0 x1 (constant S512x2048 .f32 0x00000000#32) : FVec Ideal S512x2048 .f32) (ix2 p c)
      = ∑ k : Fin 2048, x0 (ix2 p k) * x1 (ix2 k c) := by
  simp only [matmul]
  rw [Ideal.matmul_constant_zero_apply, ← Equiv.sum_comp (contrEquiv1 dot_S512x2048_S2048x2048_S512x2048_1_0_0_1_n_n 2048 rfl rfl).symm]
  refine Finset.sum_congr rfl fun k _ => ?_
  have hk := contrEquiv1_symm_val dot_S512x2048_S2048x2048_S512x2048_1_0_0_1_n_n 2048 rfl rfl k
  have el : dot_S512x2048_S2048x2048_S512x2048_1_0_0_1_n_n.lhsIdx (ix2 p c) ((contrEquiv1 dot_S512x2048_S2048x2048_S512x2048_1_0_0_1_n_n 2048 rfl rfl).symm k) = ix2 p k := funext fun a => Fin.ext (by
    match a with
    | ⟨0, _⟩ => exact lhs_row _ _
    | ⟨1, _⟩ => exact (lhs_contr _ _).trans hk)
  have er : dot_S512x2048_S2048x2048_S512x2048_1_0_0_1_n_n.rhsIdx (ix2 p c) ((contrEquiv1 dot_S512x2048_S2048x2048_S512x2048_1_0_0_1_n_n 2048 rfl rfl).symm k) = ix2 k c := funext fun a => Fin.ext (by
    match a with
    | ⟨0, _⟩ => exact (rhs_contr _ _).trans hk
    | ⟨1, _⟩ => exact rhs_col _ _)
  rw [el, er]

/-- The bias row broadcast down the block's rows, at (p, c): b[0, c]. -/
theorem bias_apply (x2 : FVec Ideal S1x2048 .f32) (p : Fin 512) (c : Fin 2048) :
    (broadcastTo S512x2048 x2 broadcasts_S1x2048_S512x2048 : FVec Ideal S512x2048 .f32) (ix2 p c) = x2 (ix2 0 c) :=
  broadcastTo_apply x2 broadcasts_S1x2048_S512x2048 (ix2 p c) (ix2 0 c) (fun a => by
    match a with
    | ⟨0, _⟩ => show 0 = if (1 : Nat) = 1 then 0 else _; rw [if_pos rfl]
    | ⟨1, _⟩ => show c.val = if (2048 : Nat) = 1 then 0 else c.val; rw [if_neg (by decide)])

/-- The stored value at (p, c): ∑ₖ x[p, k] · q[k, c] + b[0, c] over the three loaded blocks. -/
theorem stored_apply (x0 : Vec Ideal S512x2048 .f32) (x1 : Vec Ideal S2048x2048 .bf16) (x2 : Vec Ideal S1x2048 .f32)
    (p : Fin 512) (c : Fin 2048) :
    k0_pay1 (F := Ideal) x0 x1 x2 (ix2 p c) = (∑ k : Fin 2048, x0 (ix2 p k) * x1 (ix2 k c)) + x2 (ix2 0 c) := by
  unfold k0_pay1
  rw [shapeCast_self, shapeCast_self, addf_apply, product_apply, bias_apply]
  rfl

end Cert.KernelIdeal.Block

end
-- ==== Proof.Dense.lean ====
/-
  The dense layer over the extended reals, index by index: entry (r, c) of the result is row r of the
  activations against column c of the weight matrix — the sum over the 2048 contraction positions of the
  products — plus entry c of the bias. Both programs compute this one function of (activations, quantized
  weights, bias); neither side's summation order or tiling is visible at the extended reals.
-/
import Idealize.ShloMosaic.PureOps.Ideal
import Idealize.ShloMosaic.Lib.ValueIdx

noncomputable section

open scoped BigOperators

namespace Cert.TernaryDense

open Idealize.ShloMosaic Idealize.ShloMosaic.ValueIdx

/-- `dense x q b` at (r, c): ∑ₖ x[r, k] · q[k, c] + b[c]. -/
def dense (x : (⟨2, ![8192, 2048]⟩ : Shape).Idx → EReal) (q : (⟨2, ![2048, 2048]⟩ : Shape).Idx → EReal)
    (b : (⟨1, ![2048]⟩ : Shape).Idx → EReal) : (⟨2, ![8192, 2048]⟩ : Shape).Idx → EReal :=
  fun i => (∑ k : Fin 2048, x (ix2 (i 0) k) * q (ix2 k (i 1))) + b (ix1 (i 1))

theorem dense_apply (x : (⟨2, ![8192, 2048]⟩ : Shape).Idx → EReal) (q : (⟨2, ![2048, 2048]⟩ : Shape).Idx → EReal)
    (b : (⟨1, ![2048]⟩ : Shape).Idx → EReal) (r : Fin 8192) (c : Fin 2048) :
    dense x q b (ix2 r c) = (∑ k : Fin 2048, x (ix2 r k) * q (ix2 k c)) + b (ix1 c) := rfl

end Cert.TernaryDense

end
-- ==== Proof.KernelDense.lean ====
/-
  The kernel's result array after the run, as one function of the argument arrays.

  Before the launch the host computes the quantized weights from w (alpha = mean |w|; an entry whose absolute
  value is below 0.7 · alpha becomes 0, any other alpha · sign w) and views the bias as one row. The grid has 16
  points; point t multiplies rows 512·t … 512·t + 511 of the activations by the whole quantized weight matrix,
  adds the bias row, and writes rows 512·t … 512·t + 511 of the result. The 16 row bands tile the 8192 rows, so
  the result array ends holding the dense layer of (x, quantized weights, b).
-/
import proofs.«416222_j17892833755667_3_alg».proof.Proof.Gen.KernelIdeal.Value
import proofs.«416222_j17892833755667_3_alg».proof.Proof.BlockDense
import proofs.«416222_j17892833755667_3_alg».proof.Proof.Dense
import Idealize.ShloMosaic.Lib.Pipeline.Value
import Idealize.ShloMosaic.Lib.StableHlo.Run
import Idealize.ShloMosaic.Lib.Tactic

noncomputable section

open scoped BigOperators

namespace Cert.KernelIdeal.DenseValue

open Cert.KernelIdeal Cert.KernelIdeal.Gen Cert.KernelIdeal.Value Idealize.ShloMosaic Idealize.ShloMosaic.TcCoe Idealize.SL.Sem
open Idealize.ShloMosaic.ValueIdx Idealize.ShloMosaic.StableHlo Cert.TernaryDense
open Idealize.ShloMosaic.Pipeline (Dat)

variable (m : (ℓ : Loc nD τ sig) → Buf (Elt Ideal) ℓ) (ρ : Dev nD → PrngReg)

/-! ## The arrays the host prepares -/

/-- The ternary quantization of the weights, as the host computes it: with alpha the sum of |w| over all
    2048 · 2048 entries divided by their number, an entry with |w| < 0.7 · alpha goes to 0 and any other to
    alpha · sign w. -/
def quantized {F : FTy → Type} [FloatOps F] (w : FVec F S2048x2048 .f32) : FVec F S2048x2048 .f32 :=
  mulf (broadcastInDim S2048x2048 ![] bcast_S_S2048x2048 (Host.divf (Host.reduceAdd (Host.absf w) (constant S_ .f32 0x00000000#32) reducesTo_S2048x2048_S_d0_1 h_S_) (constant S_ .f32 0x4A800000#32)))
    (select (cmpf .olt (Host.absf w) (broadcastInDim S2048x2048 ![] bcast_S_S2048x2048 (mulf (constant S_ .f32 0x3F333333#32) (Host.divf (Host.reduceAdd (Host.absf w) (constant S_ .f32 0x00000000#32) reducesTo_S2048x2048_S_d0_1 h_S_) (constant S_ .f32 0x4A800000#32)))))
      (broadcastInDim S2048x2048 ![] bcast_S_S2048x2048 (constant S_ .f32 0x00000000#32)) (Host.sign w))

/-- The weight operand the launch finds: the quantized weights, narrowed (no change at the extended reals). -/
theorem weights_at_launch (c : Dev nD) :
    (V m c main_v12 : S2048x2048.Idx → EReal) = quantized (F := Ideal) (m ((c : Thread nD τ).loc main_arg1)) := by
  dsimp only [V]
  simp only [hostOps0, hostOps0_1, hostOps0_2, List.flatten_cons, List.flatten_nil, List.append_nil, List.cons_append, List.nil_append]
  after_results
  rfl

/-- The bias operand the launch finds: the bias viewed as one row. -/
theorem bias_at_launch (c : Dev nD) :
    (V m c main_v13 : S1x2048.Idx → EReal) = shapeCast S1x2048 (m ((c : Thread nD τ).loc main_arg2)) shapeCasts_S2048_S1x2048 := by
  dsimp only [V]
  simp only [hostOps0, hostOps0_1, hostOps0_2, List.flatten_cons, List.flatten_nil, List.append_nil, List.cons_append, List.nil_append]
  after_results
  rfl

/-! ## Which block each window holds at a grid point -/

/-- Decided over the 16 points: the activation window and the result window are on row band t, column band 0;
    the weight window and the bias window stay on block (0, 0). -/
theorem band_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The activation block at point t is rows 512·t … 512·t + 511 of x. -/
theorem act_block_apply (c : Dev nD) (t : Fin cfg0.N) (p : Fin 512) (k : Fin 2048) (r : Fin 8192) (hr : r.val = 512 * t.val + p.val) :
    (iblk m c 0 t : Vec Ideal S512x2048 .f32) (ix2 p k) = (m ((c : Thread nD τ).loc main_arg0) : S8192x2048.Idx → EReal) (ix2 r k) := by
  obtain ⟨e0, e1, -⟩ := band_facts t
  unfold iblk
  rw [View.read_apply]
  show V m c main_arg0 _ = _
  rw [V_main_arg0]
  congr 1
  funext a
  apply Fin.ext
  match a with
  | ⟨0, _⟩ => show win0_0.index t (0 : Fin 2) * 512 + 1 * p.val = r.val; rw [e0, hr]; omega
  | ⟨1, _⟩ => show win0_0.index t (1 : Fin 2) * 2048 + 1 * k.val = k.val; rw [e1]; omega

/-- The weight block at every point is the whole weight operand. -/
theorem weight_block_apply (c : Dev nD) (t : Fin cfg0.N) (k : Fin 2048) (q : Fin 2048) :
    (iblk m c 1 t : Vec Ideal S2048x2048 .bf16) (ix2 k q) = (V m c main_v12 : S2048x2048.Idx → EReal) (ix2 k q) := by
  obtain ⟨-, -, e0, e1, -⟩ := band_facts t
  unfold iblk
  rw [View.read_apply]
  show V m c main_v12 _ = _
  congr 1
  funext a
  apply Fin.ext
  match a with
  | ⟨0, _⟩ => show win0_1.index t (0 : Fin 2) * 2048 + 1 * k.val = k.val; rw [e0]; omega
  | ⟨1, _⟩ => show win0_1.index t (1 : Fin 2) * 2048 + 1 * q.val = q.val; rw [e1]; omega

/-- The bias block at every point is the whole bias row. -/
theorem bias_block_apply (c : Dev nD) (t : Fin cfg0.N) (q : Fin 2048) :
    (iblk m c 2 t : Vec Ideal S1x2048 .f32) (ix2 0 q) = (V m c main_v13 : S1x2048.Idx → EReal) (ix2 0 q) := by
  obtain ⟨-, -, -, -, e0, e1, -⟩ := band_facts t
  unfold iblk
  rw [View.read_apply]
  show V m c main_v13 _ = _
  congr 1
  funext a
  apply Fin.ext
  match a with
  | ⟨0, _⟩ => show win0_2.index t (0 : Fin 2) * 1 + 1 * 0 = 0; rw [e0]
  | ⟨1, _⟩ => show win0_2.index t (1 : Fin 2) * 2048 + 1 * q.val = q.val; rw [e1]; omega

/-- The bias row at column q is b[q]. -/
theorem bias_row_apply (c : Dev nD) (q : Fin 2048) :
    (V m c main_v13 : S1x2048.Idx → EReal) (ix2 0 q) = (m ((c : Thread nD τ).loc main_arg2) : S2048.Idx → EReal) (ix1 q) := by
  rw [bias_at_launch]
  exact shapeCast_apply _ shapeCasts_S2048_S1x2048 (ix2 0 q) (ix1 q) (by
    rw [Shape.rowMajor_val_one, Shape.rowMajor_val_two]
    show q.val = 0 * 2048 + q.val
    omega)

/-! ## What each point writes back, and the array after the run -/

theorem origin_zero : (![0, 0] : Fin 2 → Nat) = fun _ => 0 := funext fun a => by fin_cases a <;> rfl

/-- The result of the run, as a function of the argument arrays on core `c`. -/
abbrev result (c : Dev nD) : S8192x2048.Idx → EReal :=
  dense (m ((c : Thread nD τ).loc main_arg0)) (quantized (F := Ideal) (m ((c : Thread nD τ).loc main_arg1))) (m ((c : Thread nD τ).loc main_arg2))

/-- What point t writes back is row band t of the dense layer: at (p, c) of the block, row 512·t + p of x against
    column c of the quantized weights, plus b[c]. -/
theorem band_written (c : Dev nD) (t : Fin cfg0.N) :
    (dats m 0 c).flushed 3 t = ((cfg0.win 3).blk t).view.read (Elt Ideal) (result m c) := by
  rw [flushed3]
  unfold out0_3
  rw [View.canon_unit_zero origin_zero]
  simp only [View.ld_unit_zero (S := S512x2048) origin_zero, View.ld_unit_zero (S := S2048x2048) origin_zero, View.ld_unit_zero (S := S1x2048) origin_zero]
  funext j
  obtain ⟨p, q, rfl⟩ : ∃ (p : Fin 512) (q : Fin 2048), j = ix2 p q := ⟨j 0, j 1, eq_ix2 j⟩
  have hp : 512 * t.val + p.val < 8192 := by have := t.isLt; have hN : cfg0.N = 16 := N_0; omega
  obtain ⟨-, -, -, -, -, -, e0, e1⟩ := band_facts t
  have hemb : ((cfg0.win 3).blk t).view.emb (ix2 p q) = ix2 (⟨512 * t.val + p.val, hp⟩ : Fin 8192) q := by
    funext a
    apply Fin.ext
    match a with
    | ⟨0, _⟩ => show win0_3.index t (0 : Fin 2) * 512 + 1 * p.val = 512 * t.val + p.val; rw [e0]; omega
    | ⟨1, _⟩ => show win0_3.index t (1 : Fin 2) * 2048 + 1 * q.val = q.val; rw [e1]; omega
  rw [View.read_apply, hemb]
  show k0_pay1 (F := Ideal) (iblk m c 0 t) (iblk m c 1 t) (iblk m c 2 t) (ix2 p q) = _
  refine (Block.stored_apply (iblk m c 0 t) (iblk m c 1 t) (iblk m c 2 t) p q).trans ?_
  show _ = dense (m ((c : Thread nD τ).loc main_arg0)) (quantized (F := Ideal) (m ((c : Thread nD τ).loc main_arg1))) (m ((c : Thread nD τ).loc main_arg2))
    (ix2 (⟨512 * t.val + p.val, hp⟩ : Fin 8192) q)
  rw [dense_apply, bias_block_apply, bias_row_apply]
  congr 1
  refine Finset.sum_congr rfl fun k _ => ?_
  rw [act_block_apply m c t p k ⟨512 * t.val + p.val, hp⟩ rfl, weight_block_apply, weights_at_launch]

/-- Row r of the result lies in the band of point r / 512. -/
theorem rows_covered (i : S8192x2048.Idx) :
    ∃ t : Fin cfg0.N, (cfg0.win 3).flush t = true ∧ i ∈ ((cfg0.win 3).blk t).view.set := by
  have hi0 : (i 0).val < 8192 := (i 0).isLt
  have hi1 : (i 1).val < 2048 := (i 1).isLt
  have hN : cfg0.N = 16 := N_0
  let t : Fin cfg0.N := ⟨(i 0).val / 512, by rw [hN]; omega⟩
  obtain ⟨-, -, -, -, -, -, e0, e1⟩ := band_facts t
  refine ⟨t, flush0_3 t, ?_⟩
  show i ∈ ((View.whole main_v14).slice (win0_3.rect t)).set
  rw [View.set_slice_whole, Rect.mem_set_unit]
  intro a
  match a with
  | ⟨0, _⟩ =>
    show win0_3.index t (0 : Fin 2) * 512 ≤ (i 0).val ∧ (i 0).val < win0_3.index t (0 : Fin 2) * 512 + 512
    rw [e0]; show (i 0).val / 512 * 512 ≤ (i 0).val ∧ (i 0).val < (i 0).val / 512 * 512 + 512; omega
  | ⟨1, _⟩ =>
    show win0_3.index t (1 : Fin 2) * 2048 ≤ (i 1).val ∧ (i 1).val < win0_3.index t (1 : Fin 2) * 2048 + 2048
    rw [e1]; omega

/-- The result array after the run is the dense layer of the activations, the quantized weights and the bias. -/
theorem result_array (c : Dev nD) : (dats m 0 c).arrAt 3 cfg0.N = result m c :=
  (dats m 0 c).arrAt_eq_of_cover 3 (result m c) (fun t _ => band_written m c t) rows_covered

/-- The run, read: every weakly fair execution ends with the result array at the dense layer and the arguments
    unchanged. -/
theorem run : θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (result_array m c), (h c).2⟩) (run_blocks m ρ)

end Cert.KernelIdeal.DenseValue

end
-- ==== Proof.RefDense.lean ====
/-
  The reference program's result, read at an index: the host's dot_general of the activations with the
  quantized weight matrix is the sum over the contraction position k of x[r, k] · q[k, c], and the bias,
  broadcast first to one row and then down the 8192 rows, reads b[c]. So the reference's last stage is
  the dense layer of (x, the quantized weights, b).
-/
import proofs.«416222_j17892833755667_3_alg».proof.Proof.Gen.ReferenceIdeal.Read
import proofs.«416222_j17892833755667_3_alg».proof.Proof.Dense

noncomputable section

open scoped BigOperators

namespace Cert.ReferenceIdeal.RefValue

open Cert.ReferenceIdeal Cert.ReferenceIdeal.Read Idealize.ShloMosaic Idealize.ShloMosaic.ValueIdx Cert.TernaryDense

/-- The left operand of the product at output (r, c) and contraction position k is x[r, k]. -/
theorem lhs_pos (i : S8192x2048.Idx) (k : Fin 2048) : lidx_main_v12 i k = ix2 (i 0) k :=
  funext fun a => Fin.ext (by match a with | ⟨0, _⟩ => rfl | ⟨1, _⟩ => rfl)

/-- The right operand there is q[k, c]. -/
theorem rhs_pos (i : S8192x2048.Idx) (k : Fin 2048) : ridx_main_v12 i k = ix2 k (i 1) :=
  funext fun a => Fin.ext (by match a with | ⟨0, _⟩ => rfl | ⟨1, _⟩ => rfl)

/-- The twice-broadcast bias at (r, c) is b[c]. -/
theorem bias_pos (i : S8192x2048.Idx) : idx_main_v13 (idx_main_v14 i) = ix1 (i 1) :=
  funext fun a => Fin.ext (by match a with | ⟨0, _⟩ => rfl)

/-- The reference's result is the dense layer of the activations, the quantized weights (the stage the
    reference multiplies by) and the bias. -/
theorem result_is_dense (x : (⟨S8192x2048, .f32⟩ : BufTy).Contents (Elt Ideal)) (w : (⟨S2048x2048, .f32⟩ : BufTy).Contents (Elt Ideal))
    (b : (⟨S2048, .f32⟩ : BufTy).Contents (Elt Ideal)) :
    val_main_v15 (F := Ideal) x w b = dense x (val_main_v11 (F := Ideal) w) b := by
  funext i
  rw [val_main_v15_apply, val_main_v12_apply, val_main_v14_apply, val_main_v13_apply]
  simp only [lhs_pos, rhs_pos, bias_pos]
  rfl

end Cert.ReferenceIdeal.RefValue

end
-- ==== Proof.lean ====
/-
  TernaryDense: out = x · Q(w) + b, where Q(w) is the ternary quantization of the weights (alpha = mean |w|;
  an entry with |w| < 0.7 · alpha becomes 0, any other alpha · sign w).

  The kernel quantizes on the host, narrows Q(w) and the activations to bf16, and multiplies 512-row bands of x
  by the whole Q(w) on a 16-point grid, adding the bias row to each band. The reference multiplies x by Q(w) in
  one product and adds the broadcast bias. Over the extended reals the narrowing is the identity and both
  products are the same sums, so both result arrays are the dense layer ∑ₖ x[r, k] · Q(w)[k, c] + b[c]. The two
  quantizations are the same chain of operations on w, literal by literal; no law of the extended reals beyond
  0 + s = s is used, so the precondition is never opened.
-/
import proofs.«416222_j17892833755667_3_alg».proof.Defs
import proofs.«416222_j17892833755667_3_alg».proof.Proof.Gen.Kernel
import proofs.«416222_j17892833755667_3_alg».proof.Proof.Gen.Kernel.Skeleton
import proofs.«416222_j17892833755667_3_alg».proof.Proof.Gen.Kernel.Launch
import proofs.«416222_j17892833755667_3_alg».proof.Proof.Gen.Kernel.Points
import proofs.«416222_j17892833755667_3_alg».proof.Proof.Gen.Kernel.Frame
import proofs.«416222_j17892833755667_3_alg».proof.Proof.Gen.KernelIdeal
import proofs.«416222_j17892833755667_3_alg».proof.Proof.Gen.KernelIdeal.Skeleton
import proofs.«416222_j17892833755667_3_alg».proof.Proof.Gen.KernelIdeal.Launch
import proofs.«416222_j17892833755667_3_alg».proof.Proof.Gen.KernelIdeal.Points
import proofs.«416222_j17892833755667_3_alg».proof.Proof.Gen.KernelIdeal.Frame
import proofs.«416222_j17892833755667_3_alg».proof.Proof.Gen.ReferenceIdeal
import proofs.«416222_j17892833755667_3_alg».proof.Proof.Gen.Pre_finite_inputs
import proofs.«416222_j17892833755667_3_alg».proof.Proof.Gen.KernelIdeal.Value
import proofs.«416222_j17892833755667_3_alg».proof.Proof.Gen.ReferenceIdeal.Run
import proofs.«416222_j17892833755667_3_alg».proof.Proof.Gen.ReferenceIdeal.Read
import proofs.«416222_j17892833755667_3_alg».proof.Proof.KernelDense
import proofs.«416222_j17892833755667_3_alg».proof.Proof.RefDense
import Idealize.ShloMosaic.Adequacy
import Idealize.ShloMosaic.Init

noncomputable section

namespace Cert.Proof

open Idealize.ShloMosaic Idealize.SL.Sem

/-- The kernel's host-side quantization of the weights and the reference's are the same operations on w. -/
theorem quantized_eq (w : (⟨2, ![2048, 2048]⟩ : Shape).Idx → EReal) :
    Cert.ReferenceIdeal.Read.val_main_v11 (F := Ideal) w = Cert.KernelIdeal.DenseValue.quantized (F := Ideal) w := rfl

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the dense layer of the activations, the quantized weights and the bias. -/
theorem algebraic : Cert.algebraic_KernelIdeal_ReferenceIdeal := by
  intro m ρ m' ρ' _ hagree
  refine ⟨fun c => Cert.KernelIdeal.DenseValue.result m c, Cert.KernelIdeal.DenseValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_is_dense, quantized_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
